-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x4096 : Shape := ⟨2, ![32, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S512x4096 32) (main_arg2 : FVec F S32x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S512x4096 : Shape := ⟨2, ![512, 4096]⟩
abbrev S32x4096 : Shape := ⟨2, ![32, 4096]⟩
abbrev S4096 : Shape := ⟨1, ![4096]⟩
abbrev S4096x4096 : Shape := ⟨2, ![4096, 4096]⟩
abbrev S512x512 : Shape := ⟨2, ![512, 512]⟩
abbrev S32x512 : Shape := ⟨2, ![32, 512]⟩
abbrev S4096x512 : Shape := ⟨2, ![4096, 512]⟩
abbrev S1x8 : Shape := ⟨2, ![1, 8]⟩
abbrev S8 : Shape := ⟨1, ![8]⟩
abbrev S512x1x512 : Shape := ⟨3, ![512, 1, 512]⟩
abbrev S1x8x1 : Shape := ⟨3, ![1, 8, 1]⟩
abbrev S512x8x512 : Shape := ⟨3, ![512, 8, 512]⟩
abbrev S32x1x512 : Shape := ⟨3, ![32, 1, 512]⟩
abbrev S32x16x512 : Shape := ⟨3, ![32, 16, 512]⟩
abbrev S1024x4096 : Shape := ⟨2, ![1024, 4096]⟩
abbrev S512 : Shape := ⟨1, ![512]⟩
abbrev S1024x512 : Shape := ⟨2, ![1024, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x4096, .f32⟩
  | .hbm, ⟨3, _⟩ => ⟨S4096, .f32⟩
  | .hbm, ⟨4, _⟩ => ⟨S4096x4096, .bf16⟩
  | .hbm, ⟨5, _⟩ => ⟨S8192x4096, .f32⟩
  | .local _ .vmem, ⟨0, _⟩ => ⟨S512x512, .i32⟩
  | .local _ .vmem, ⟨1, _⟩ => ⟨S512x512, .i32⟩
  | .local _ .vmem, ⟨2, _⟩ => ⟨S32x512, .f32⟩
  | .local _ .vmem, ⟨3, _⟩ => ⟨S32x512, .f32⟩
  | .local _ .vmem, ⟨4, _⟩ => ⟨S4096x512, .bf16⟩
  | .local _ .vmem, ⟨5, _⟩ => ⟨S4096x512, .bf16⟩
  | .local _ .vmem, ⟨6, _⟩ => ⟨S1024x4096, .f32⟩
  | .local _ .vmem, ⟨7, _⟩ => ⟨S1024x4096, .f32⟩
  | .local _ .vmem, ⟨8, _⟩ => ⟨S4096x512, .bf16⟩
  | .local _ .vmem, ⟨9, _⟩ => ⟨S4096x512, .bf16⟩
  | .local _ .vmem, ⟨10, _⟩ => ⟨S512, .f32⟩
  | .local _ .vmem, ⟨11, _⟩ => ⟨S512, .f32⟩
  | .local _ .vmem, ⟨12, _⟩ => ⟨S1024x512, .f32⟩
  | .local _ .vmem, ⟨13, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x512_S512x512_0_0 : ∀ a, (![0, 0] : Fin 2 → Nat) a + S512x512.size a ≤ S512x512.size a
  h_S512x512 : 0 < S512x512.numel
  iota_S1x8_d1_w32 : S1x8.Iotas .tc 32 [1]
  shapeCasts_S1x8_S8 : S1x8.ShapeCasts S8
  shapeCasts_S512x512_S512x1x512 : S512x512.ShapeCasts S512x1x512
  shapeCasts_S8_S1x8x1 : S8.ShapeCasts S1x8x1
  broadcasts_S512x1x512_S512x8x512 : S512x1x512.Broadcasts S512x8x512
  broadcasts_S1x8x1_S512x8x512 : S1x8x1.Broadcasts S512x8x512
  inb_S32x512_S32x512_0_0 : ∀ a, (![0, 0] : Fin 2 → Nat) a + S32x512.size a ≤ S32x512.size a
  h_S32x512 : 0 < S32x512.numel
  shapeCasts_S32x512_S32x1x512 : S32x512.ShapeCasts S32x1x512
  shapeCasts_S32x1x512_S32x1x512 : S32x1x512.ShapeCasts S32x1x512
  broadcasts_S32x1x512_S32x16x512 : S32x1x512.Broadcasts S32x16x512
  shapeCasts_S32x16x512_S512x512 : S32x16x512.ShapeCasts S512x512
  shapeCasts_S512x8x512_S4096x512 : S512x8x512.ShapeCasts S4096x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  packedbf16_S4096x512_S4096x512_0_0 : (Rect.unit (s := S4096x512) ![0, 0] S4096x512.size inb_S4096x512_S4096x512_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x4096.size a
  hwx0_0 : ∀ i : grid0.Coords, EltTy.bits .i32 = 32 ∨ (Rect.block (s := S512x4096) S512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x4096.size a
  hwx0_1 : ∀ i : grid0.Coords, EltTy.bits .f32 = 32 ∨ (Rect.block (s := S32x4096) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .bf16 = 32 ∨ (Rect.block (s := S4096x4096) S4096x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S512x4096 : Shape := ⟨2, ![512, 4096]⟩
abbrev S32x4096 : Shape := ⟨2, ![32, 4096]⟩
abbrev S4096 : Shape := ⟨1, ![4096]⟩
abbrev S16 : Shape := ⟨1, ![16]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S32x128x4096 : Shape := ⟨3, ![32, 128, 4096]⟩
abbrev S32x128x4096x1 : Shape := ⟨4, ![32, 128, 4096, 1]⟩
abbrev S32x1x4096 : Shape := ⟨3, ![32, 1, 4096]⟩
abbrev S4096x4096 : Shape := ⟨2, ![4096, 4096]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x4096, .f32⟩
  | .hbm, ⟨3, _⟩ => ⟨S4096, .f32⟩
  | .hbm, ⟨4, _⟩ => ⟨S16, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S512x1x4096, .i32⟩
  | .hbm, ⟨13, _⟩ => ⟨S1x8x1, .i32⟩
  | .hbm, ⟨14, _⟩ => ⟨S512x8x4096, .i32⟩
  | .hbm, ⟨15, _⟩ => ⟨S512x8x4096, .i32⟩
  | .hbm, ⟨16, _⟩ => ⟨S512x8x4096, .i32⟩
  | .hbm, ⟨17, _⟩ => ⟨S_, .i32⟩
  | .hbm, ⟨18, _⟩ => ⟨S512x8x4096, .i32⟩
  | .hbm, ⟨19, _⟩ => ⟨S512x8x4096, .i32⟩
  | .hbm, ⟨20, _⟩ => ⟨S32x128x4096, .i32⟩
  | .hbm, ⟨21, _⟩ => ⟨S_, .i32⟩
  | .hbm, ⟨22, _⟩ => ⟨S32x128x4096, .i32⟩
  | .hbm, ⟨23, _⟩ => ⟨S32x128x4096, .i1⟩
  | .hbm, ⟨24, _⟩ => ⟨S_, .i32⟩
  | .hbm, ⟨25, _⟩ => ⟨S32x128x4096, .i32⟩
  | .hbm, ⟨26, _⟩ => ⟨S32x128x4096, .i32⟩
  | .hbm, ⟨27, _⟩ => ⟨S32x128x4096, .i32⟩
  | .hbm, ⟨28, _⟩ => ⟨S32x128x4096x1, .i32⟩
  | .hbm, ⟨29, _⟩ => ⟨S32x128x4096, .f32⟩
  | .hbm, ⟨30, _⟩ => ⟨S32x1x4096, .f32⟩
  | .hbm, ⟨31, _⟩ => ⟨S32x128x4096, .f32⟩
  | .hbm, ⟨32, _⟩ => ⟨S32x128x4096, .f32⟩
  | .hbm, ⟨33, _⟩ => ⟨S4096x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S32x128x4096 : S512x8x4096.ShapeCasts S32x128x4096
  bcast_S_S32x128x4096 : S_.BroadcastsInDim S32x128x4096 (![] : Fin 0 → Fin S32x128x4096.rank)
  bcast_S32x128x4096_S32x128x4096x1_0_1_2 : S32x128x4096.BroadcastsInDim S32x128x4096x1 (![0, 1, 2] : Fin 3 → Fin S32x128x4096x1.rank)
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S16_S32x128x4096x1_S32x128x4096_n_0_n_n_0_3_1_wf : GatherDims.WF S16 S32x128x4096x1 S32x128x4096 [] [0] [] [0] [] 3 ![1]
  dot_S8192x4096_S4096x4096_S8192x4096_1_0_0_1_n_n_wf : DotDims.WF S8192x4096 S4096x4096 S8192x4096 [1] [0] [0] [1] [] []

variable [Facts₀]

def gather_S16_S32x128x4096x1_S32x128x4096_n_0_n_n_0_3_1 : GatherDims S16 S32x128x4096x1 S32x128x4096 where
  offsetDims := []
  collapsedSliceDims := [0]
  operandBatchingDims := []
  startIndicesBatchingDims := []
  startIndexMap := [0]
  indexVectorDim := 3
  sliceSizes := ![1]
  wf := gather_S16_S32x128x4096x1_S32x128x4096_n_0_n_n_0_3_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  What both programs compute, as plain functions of the four argument arrays.
  A packed 32-bit word holds eight 4-bit codes, nibble `j` in bits `4j … 4j+3`. A code stands for one of the sixteen
  numbers −6, −4, −3, −2, −3/2, −1, −1/2, 0, 0, 1/2, 1, 3/2, 2, 3, 4, 6 (`codeVal`). Row `k` of the weight matrix
  (4096 rows) reads nibble `k % 8` of packed row `k / 8` (512 packed rows) and is scaled by its group's scale, the
  groups being 128 consecutive rows (32 groups): `wgtAt`. The result is the matrix product of `x` with those weights,
  a sum over the 4096 rows, plus the bias of the column: `outAt`.
-/
import Idealize.ShloMosaic.Lib.ValueIdx

noncomputable section

open scoped BigOperators

namespace Cert.Dequant

open Idealize.ShloMosaic Idealize.ShloMosaic.ValueIdx

/-- Nibble `j` of a packed word: bits `4j … 4j+3`, as a word in `[0, 15]`. -/
def nib (w : BitVec 32) (j : Fin 8) : BitVec 32 := (w >>> (4 * j.val)) &&& 15#32

/-- The number a 4-bit code stands for. -/
def codeVal : Fin 16 → ℝ := ![-6, -4, -3, -2, -(3 / 2), -1, -(1 / 2), 0, 0, 1 / 2, 1, 3 / 2, 2, 3, 4, 6]

/-- The number a code WORD stands for: the word read modulo 16 (a nibble is below 16 already). -/
def valOf (c : BitVec 32) : EReal := ((codeVal ⟨c.toNat % 16, Nat.mod_lt _ (by decide)⟩ : ℝ) : EReal)

/-- The weight at row `k`, column `n`: the number of nibble `k % 8` of packed word `(k / 8, n)`, times the scale
    of row group `k / 128` in that column. -/
def wgtAt (q : (⟨2, ![512, 4096]⟩ : Shape).Idx → BitVec 32) (s : (⟨2, ![32, 4096]⟩ : Shape).Idx → EReal)
    (k n : Fin 4096) : EReal :=
  valOf (nib (q (ix2 (⟨k.val / 8, by have := k.isLt; omega⟩ : Fin 512) n)) ⟨k.val % 8, by omega⟩)
    * s (ix2 (⟨k.val / 128, by have := k.isLt; omega⟩ : Fin 32) n)

/-- The whole weight matrix. -/
def wgt (q : (⟨2, ![512, 4096]⟩ : Shape).Idx → BitVec 32) (s : (⟨2, ![32, 4096]⟩ : Shape).Idx → EReal) :
    (⟨2, ![4096, 4096]⟩ : Shape).Idx → EReal :=
  fun i => wgtAt q s ⟨(i 0).val, idx2_lt0 i⟩ ⟨(i 1).val, idx2_lt1 i⟩

/-- The result at row `r`, column `n`: the row of `x` against the column of the weights, plus the column's bias. -/
def outAt (x : (⟨2, ![8192, 4096]⟩ : Shape).Idx → EReal) (W : (⟨2, ![4096, 4096]⟩ : Shape).Idx → EReal)
    (b : (⟨1, ![4096]⟩ : Shape).Idx → EReal) (r : Fin 8192) (n : Fin 4096) : EReal :=
  (∑ k : Fin 4096, x (ix2 r k) * W (ix2 k n)) + b (ix1 n)

/-- The whole result. -/
def out (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => outAt x W b ⟨(i 0).val, idx2_lt0 i⟩ ⟨(i 1).val, idx2_lt1 i⟩

end Cert.Dequant

end
-- ==== Proof.Nibble.lean ====
/-
  Words and numbers of one 4-bit code.
-/
import proofs.«422847_j4724464026022_3_alg».proof.Proof.Spec
import Idealize.ShloMosaic.Lib.IdealHost

noncomputable section

namespace Cert.Dequant

open Idealize.ShloMosaic Idealize.ShloMosaic.ValueIdx

/-- A nibble is below 16. -/
theorem nib_lt (w : BitVec 32) (j : Fin 8) : (nib w j).toNat < 16 := by
  unfold nib
  rw [BitVec.toNat_and]
  have h : (w >>> (4 * j.val)).toNat &&& (15#32).toNat ≤ (15#32).toNat := Nat.and_le_right
  have h15 : (15#32).toNat = 15 := by decide
  omega

/-- The shift amount both programs build for nibble `j`: `0 + 4 * j`, as a word. -/
theorem shamt_eq (j : Fin 8) :
    IntOp.addi 0#32 (IntOp.muli 4#32 (BitVec.ofNat 32 j.val)) = BitVec.ofNat 32 (4 * j.val) := by
  fin_cases j <;> decide

/-- The word `4 * j` is the number `4 * j` (it is at most 28). -/
private theorem shamt_toNat (j : Fin 8) : (BitVec.ofNat 32 (4 * j.val)).toNat = 4 * j.val := by
  fin_cases j <;> decide

/-- A logical shift right by `4j` and the mask 15 is nibble `j`, on any unit. -/
theorem shrui_andi (u : ArithUnit) (w : BitVec 32) (j : Fin 8) :
    IntOp.andi (IntOp.shrui u w (BitVec.ofNat 32 (4 * j.val))) 15#32 = nib w j := by
  unfold IntOp.andi IntOp.shrui nib
  have h := shamt_toNat j
  rw [if_pos (by rw [h]; have := j.isLt; omega)]
  rw [BitVec.ushiftRight_eq', h]

/-- So is an arithmetic shift right by `4j` and the mask: the sign bits it brings in lie above bit 3 (`4j ≤ 28`). -/
theorem shrsi_andi (u : ArithUnit) (w : BitVec 32) (j : Fin 8) :
    IntOp.andi (IntOp.shrsi u w (BitVec.ofNat 32 (4 * j.val))) 15#32 = nib w j := by
  unfold IntOp.andi IntOp.shrsi nib
  have h := shamt_toNat j
  have hj := j.isLt
  rw [if_pos (by rw [h]; omega)]
  rw [BitVec.sshiftRight_eq', h]
  -- bit by bit: below bit 4 both shifts read bit `4j + i` of the word (`4j + i < 32`); from bit 4 up the mask is 0
  ext i hi
  simp only [BitVec.getElem_and, BitVec.getElem_sshiftRight, BitVec.getElem_ushiftRight]
  by_cases h4 : i < 4
  · rw [dif_pos (show 4 * j.val + i < 32 by omega), BitVec.getLsbD_eq_getElem (show 4 * j.val + i < 32 by omega)]
  · have h15 : (15#32)[i] = false := by
      rw [← BitVec.getLsbD_eq_getElem, BitVec.getLsbD_ofNat]
      have : Nat.testBit 15 i = false :=
        Nat.testBit_lt_two_pow (lt_of_lt_of_le (by norm_num : 15 < 2 ^ 4) (Nat.pow_le_pow_right (by norm_num) (by omega)))
      simp [this]
    simp [h15]

/-- A code below 16 is not negative, so "add 16 if negative" leaves it. -/
theorem wrap_eq (c : BitVec 32) (hc : c.toNat < 16) :
    Scalar.select (IntOp.cmpi .slt c 0#32) (IntOp.addi c 16#32) c = c := by
  unfold Scalar.select IntOp.cmpi
  have : c.slt 0#32 = false := by
    rw [BitVec.slt_eq_decide]
    have : c.toInt = c.toNat := by
      rw [BitVec.toInt_eq_toNat_cond]; rw [if_pos (by omega)]
    simp [this]
  simp [this]

/-- A code below 16, read signed and clamped into `[0, 15]`, is itself. -/
theorem clamp_eq (c : BitVec 32) (hc : c.toNat < 16) : min c.toInt.toNat (16 - 1) = c.toNat := by
  have : c.toInt = c.toNat := by
    rw [BitVec.toInt_eq_toNat_cond]; rw [if_pos (by omega)]
  rw [this]
  simp
  omega

/-- The sixteen f32 words of the table, in order. -/
def tabWord : Fin 16 → BitVec 32 := fun
  | 0 => 0xC0C00000#32 | 1 => 0xC0800000#32 | 2 => 0xC0400000#32 | 3 => 0xC0000000#32 | 4 => 0xBFC00000#32 | 5 => 0xBF800000#32 | 6 => 0xBF000000#32 | 7 => 0x00000000#32
  | 8 => 0x00000000#32 | 9 => 0x3F000000#32 | 10 => 0x3F800000#32 | 11 => 0x3FC00000#32 | 12 => 0x40000000#32 | 13 => 0x40400000#32 | 14 => 0x40800000#32 | 15 => 0x40C00000#32
  | _ => 0#32

/-- Each table word denotes its code's number. -/
theorem tabWord_val (n : Fin 16) : Ideal.ofBits .f32 (tabWord n) = ((codeVal n : ℝ) : EReal) := by
  fin_cases n
  all_goals (simp [tabWord, codeVal, Ideal.ofBits, Ideal.ieee, -EReal.coe_mul, -EReal.coe_neg]; try norm_num)

/-- The f32 word `0x40000000` is the real two. -/
private theorem ofBits_two_f32_real : Ideal.ofBits .f32 0x40000000#32 = ((2 : ℝ) : EReal) := by
  simp [Ideal.ofBits, Ideal.ieee, -EReal.coe_mul]; norm_num

/-- The f32 word `0x40800000` is the real four. -/
private theorem ofBits_four_f32_real : Ideal.ofBits .f32 0x40800000#32 = ((4 : ℝ) : EReal) := by
  simp [Ideal.ofBits, Ideal.ieee, -EReal.coe_mul]; norm_num

/-- The f32 word `0x3F000000` is the real one half. -/
private theorem ofBits_half_f32_real : Ideal.ofBits .f32 0x3F000000#32 = ((1 / 2 : ℝ) : EReal) := by
  simp [Ideal.ofBits, Ideal.ieee, -EReal.coe_mul]; norm_num

/-- The sign-and-magnitude decoding of a code word `c`: bit 3 is the sign (set: positive); the low three bits,
    complemented to `7 − ·` when negative, are a magnitude code `g` with exponent field `g >>> 1` and mantissa bit
    `g &&& 1`; the magnitude is `b / 2` at exponent 0 and `(1 + b / 2) · 2 ^ (e − 1)` otherwise. -/
def dec (c : BitVec 32) : EReal :=
  let bit3 := IntOp.andi (IntOp.shrsi .vector c 3#32) 1#32
  let low3 := IntOp.andi c 7#32
  let g := Scalar.select (IntOp.cmpi .eq bit3 1#32) low3 (IntOp.subi 7#32 low3)
  let e := IntOp.shrsi .vector g 1#32
  let b : EReal := (((IntOp.andi g 1#32).toInt : ℝ) : EReal)
  let one : EReal := Ideal.ofBits .f32 0x3F800000#32
  let two : EReal := Ideal.ofBits .f32 0x40000000#32
  let four : EReal := Ideal.ofBits .f32 0x40800000#32
  let half : EReal := Ideal.ofBits .f32 0x3F000000#32
  let pow2 : EReal := Scalar.select (IntOp.cmpi .eq e 3#32) four (Scalar.select (IntOp.cmpi .eq e 2#32) two one)
  Scalar.select (IntOp.cmpi .eq e 0#32) (half * b) ((one + half * b) * pow2)
    * ((((bit3.toInt : ℝ) : EReal)) * two - one)

/-- The decoding gives the table's number, for each of the sixteen codes. -/
theorem dec_eq (c : BitVec 32) (hc : c.toNat < 16) : dec c = valOf c := by
  -- the word is one of the sixteen literals; on each the integer parts evaluate and real arithmetic is left
  obtain ⟨n, hn, rfl⟩ : ∃ n : Nat, n < 16 ∧ c = BitVec.ofNat 32 n := ⟨c.toNat, hc, by simp⟩
  clear hc
  interval_cases n
  all_goals
    simp [dec, valOf, codeVal, IntOp.andi, IntOp.shrsi, IntOp.subi, IntOp.cmpi, Scalar.select,
      ofBits_two_f32_real, ofBits_four_f32_real, ofBits_half_f32_real]
  all_goals (norm_cast <;> norm_num)

end Cert.Dequant

end
-- ==== Proof.Dequant.lean ====
/-
  The first pipeline's value. At grid point b its body decodes columns 512b … 512b+511 of the packed words (all 512
  packed rows) into 4096 weight rows: row P reads nibble P % 8 of packed row P / 8, decodes it by sign and magnitude,
  and scales it by the scale of group P / 128 in the same column. The 8 column blocks tile the 4096 × 4096 weights.
-/
import proofs.«422847_j4724464026022_3_alg».proof.Proof.Gen.KernelIdeal.Frame
import proofs.«422847_j4724464026022_3_alg».proof.Proof.Nibble
import Idealize.ShloMosaic.Lib.Pipeline.Value
import Idealize.ShloMosaic.Lib.ValueLayout

set_option maxRecDepth 16384

noncomputable section

namespace Cert.KernelIdeal.DequantValue

open Cert.KernelIdeal Cert.KernelIdeal.Gen Cert.Dequant
open Idealize.ShloMosaic Idealize.ShloMosaic.ValueIdx Idealize.ShloMosaic.TcCoe Idealize.SL.Sem
open Idealize.ShloMosaic.Pipeline (Dat)

/-! ## The body's changes of layout, read at an index -/

section Layout
variable {α : Type}

/-- A [512, 512] array viewed [512, 1, 512]: the unit axis carries nothing. -/
theorem cast_unit512 (x : S512x512.Idx → α) (h : S512x512.ShapeCasts S512x1x512) (r : Fin 512) (u : Fin 1) (n : Fin 512) :
    shapeCast S512x1x512 x h (ix3 r u n) = x (ix2 r n) :=
  shapeCast_apply x h _ _ (by
    rw [Shape.rowMajor_val_two, Shape.rowMajor_val_three]
    show r.val * 512 + n.val = (r.val * 1 + u.val) * 512 + n.val
    omega)

/-- A [32, 512] array viewed [32, 1, 512]. -/
theorem cast_unit32 (x : S32x512.Idx → α) (h : S32x512.ShapeCasts S32x1x512) (g : Fin 32) (u : Fin 1) (n : Fin 512) :
    shapeCast S32x1x512 x h (ix3 g u n) = x (ix2 g n) :=
  shapeCast_apply x h _ _ (by
    rw [Shape.rowMajor_val_two, Shape.rowMajor_val_three]
    show g.val * 512 + n.val = (g.val * 1 + u.val) * 512 + n.val
    omega)

/-- [512, 1, 512] repeated along the middle axis to [512, 8, 512]. -/
theorem bcast_mid8 (v : S512x1x512.Idx → α) (h : S512x1x512.Broadcasts S512x8x512) (r : Fin 512) (j : Fin 8) (n : Fin 512) :
    broadcastTo S512x8x512 v h (ix3 r j n) = v (ix3 r (0 : Fin 1) n) :=
  broadcastTo_apply v h _ _ fun a => by
    match a with
    | ⟨0, _⟩ => rfl
    | ⟨1, _⟩ => rfl
    | ⟨2, _⟩ => rfl

/-- [32, 1, 512] repeated along the middle axis to [32, 16, 512]. -/
theorem bcast_mid16 (v : S32x1x512.Idx → α) (h : S32x1x512.Broadcasts S32x16x512) (g : Fin 32) (u : Fin 16) (n : Fin 512) :
    broadcastTo S32x16x512 v h (ix3 g u n) = v (ix3 g (0 : Fin 1) n) :=
  broadcastTo_apply v h _ _ fun a => by
    match a with
    | ⟨0, _⟩ => rfl
    | ⟨1, _⟩ => rfl
    | ⟨2, _⟩ => rfl

/-- [1, 8, 1] repeated along the outer axes to [512, 8, 512]. -/
theorem bcast_outer (v : S1x8x1.Idx → α) (h : S1x8x1.Broadcasts S512x8x512) (r : Fin 512) (j : Fin 8) (n : Fin 512) :
    broadcastTo S512x8x512 v h (ix3 r j n) = v (ix3 (0 : Fin 1) j (0 : Fin 1)) :=
  broadcastTo_apply v h _ _ fun a => by
    match a with
    | ⟨0, _⟩ => rfl
    | ⟨1, _⟩ => rfl
    | ⟨2, _⟩ => rfl

/-- An [8] array viewed [1, 8, 1]. -/
theorem cast_amt (v : S8.Idx → α) (h : S8.ShapeCasts S1x8x1) (u : Fin 1) (j : Fin 8) (u' : Fin 1) :
    shapeCast S1x8x1 v h (ix3 u j u') = v (ix1 j) :=
  shapeCast_apply v h _ _ (by
    rw [Shape.rowMajor_val_one, Shape.rowMajor_val_three]
    show j.val = (u.val * 8 + j.val) * 1 + u'.val
    omega)

/-- [32, 16, 512] viewed [512, 512]: row r is (group r / 16, member r % 16). -/
theorem cast_rows16 (v : S32x16x512.Idx → α) (h : S32x16x512.ShapeCasts S512x512) (r : Fin 512) (n : Fin 512) :
    shapeCast S512x512 v h (ix2 r n)
      = v (ix3 (⟨r.val / 16, by have := r.isLt; omega⟩ : Fin 32) (⟨r.val % 16, by omega⟩ : Fin 16) n) :=
  shapeCast_apply v h _ _ (by
    rw [Shape.rowMajor_val_three, Shape.rowMajor_val_two]
    show ((r.val / 16) * 16 + r.val % 16) * 512 + n.val = r.val * 512 + n.val
    omega)

/-- [512, 8, 512] viewed [4096, 512]: row P is (packed row P / 8, nibble P % 8). -/
theorem cast_rows8 (v : S512x8x512.Idx → α) (h : S512x8x512.ShapeCasts S4096x512) (P : Fin 4096) (n : Fin 512) :
    shapeCast S4096x512 v h (ix2 P n)
      = v (ix3 (⟨P.val / 8, by have := P.isLt; omega⟩ : Fin 512) (⟨P.val % 8, by omega⟩ : Fin 8) n) :=
  shapeCast_apply v h _ _ (by
    rw [Shape.rowMajor_val_three, Shape.rowMajor_val_two]
    show ((P.val / 8) * 8 + P.val % 8) * 512 + n.val = P.val * 512 + n.val
    omega)

end Layout

/-! ## The code the body reads at (packed row r, nibble j, column n) -/

/-- The body's code at (r, j, n) is nibble j of the packed word at (r, n): the word shifted right by `0 + 4 j`
    and masked with 15. -/
theorem code_at (x0 : Vec Ideal S512x512 .i32) (r : Fin 512) (j : Fin 8) (n : Fin 512) :
    k0_pay2 (F := Ideal) x0 (ix3 r j n) = nib (x0 (ix2 r n)) j := by
  unfold k0_pay2
  show IntOp.andi (IntOp.shrui .vector
      (broadcastTo S512x8x512 (shapeCast S512x1x512 x0 shapeCasts_S512x512_S512x1x512) broadcasts_S512x1x512_S512x8x512 (ix3 r j n))
      (broadcastTo S512x8x512 (shapeCast S1x8x1 (addi (broadcast S8 0#32) (muli (broadcast S8 4#32)
        (shapeCast S8 (iota .tc S1x8 32 [1] iota_S1x8_d1_w32) shapeCasts_S1x8_S8))) shapeCasts_S8_S1x8x1) broadcasts_S1x8x1_S512x8x512 (ix3 r j n)))
      15#32 = _
  rw [bcast_mid8, cast_unit512, bcast_outer, cast_amt]
  show IntOp.andi (IntOp.shrui .vector (x0 (ix2 r n))
      (IntOp.addi 0#32 (IntOp.muli 4#32 (shapeCast S8 (iota .tc S1x8 32 [1] iota_S1x8_d1_w32) shapeCasts_S1x8_S8 (ix1 j))))) 15#32 = _
  rw [shapeCast_1a_a_apply, iota_single_apply]
  show IntOp.andi (IntOp.shrui .vector (x0 (ix2 r n)) (IntOp.addi 0#32 (IntOp.muli 4#32 (BitVec.ofNat 32 j.val)))) 15#32 = _
  rw [shamt_eq, shrui_andi]

/-! ## The stored value at (weight row P, column n) -/

/-- The store at (P, n), over arbitrary operand vectors: at i = (P / 8, P % 8, n) the magnitude chosen by the
    exponent test, times the sign, times the scale of group P / 128 in column n. -/
theorem pay1_at (v17 v26 : IVec S512x8x512 32) (v29 v38 v40 : FVec Ideal S512x8x512 .f32) (v55 : Vec Ideal S32x512 .f32)
    (P : Fin 4096) (n : Fin 512) :
    k0_pay1 (F := Ideal) v17 v26 v29 v38 v40 v55 (ix2 P n)
      = (Scalar.select (IntOp.cmpi .eq (v26 (ix3 (⟨P.val / 8, by have := P.isLt; omega⟩ : Fin 512) (⟨P.val % 8, by omega⟩ : Fin 8) n)) 0#32)
            (Ideal.ofBits .f32 0x3F000000#32 * v29 (ix3 (⟨P.val / 8, by have := P.isLt; omega⟩ : Fin 512) (⟨P.val % 8, by omega⟩ : Fin 8) n))
            ((Ideal.ofBits .f32 0x3F800000#32 + v40 (ix3 (⟨P.val / 8, by have := P.isLt; omega⟩ : Fin 512) (⟨P.val % 8, by omega⟩ : Fin 8) n))
              * v38 (ix3 (⟨P.val / 8, by have := P.isLt; omega⟩ : Fin 512) (⟨P.val % 8, by omega⟩ : Fin 8) n))
          * ((((v17 (ix3 (⟨P.val / 8, by have := P.isLt; omega⟩ : Fin 512) (⟨P.val % 8, by omega⟩ : Fin 8) n)).toInt : ℝ) : EReal)
              * Ideal.ofBits .f32 0x40000000#32 - Ideal.ofBits .f32 0x3F800000#32))
        * v55 (ix2 (⟨P.val / 128, by have := P.isLt; omega⟩ : Fin 32) n) := by
  unfold k0_pay1
  refine (truncf_apply (φ := .f32) (ψ := .bf16) _ bitsLt_bf16_f32 (ix2 P n)).trans ?_
  refine (cast_rows8 _ _ P n).trans ?_
  refine congrArg₂ (· * ·) rfl ?_
  refine (bcast_mid8 _ _ _ _ n).trans ?_
  refine (cast_unit512 _ _ _ 0 n).trans ?_
  refine (cast_rows16 _ _ _ n).trans ?_
  refine (bcast_mid16 _ _ _ _ n).trans ?_
  rw [shapeCast_self]
  refine (cast_unit32 _ _ _ 0 n).trans ?_
  exact congrArg v55 (funext fun a => Fin.ext (by
    match a with
    | ⟨0, _⟩ => show P.val / 8 / 16 = P.val / 128; omega
    | ⟨1, _⟩ => rfl))

/-- The body's stored value at (P, n): the decoding of nibble P % 8 of the packed word at (P / 8, n), times the scale
    of group P / 128 in column n. -/
theorem pay_at (x0 : Vec Ideal S512x512 .i32) (x1 : Vec Ideal S32x512 .f32) (P : Fin 4096) (n : Fin 512) :
    k0_pay1 (F := Ideal) (k0_pay3 x0) (k0_pay5 x0) (k0_pay6 x0) (k0_pay7 x0) (k0_pay8 x0) x1 (ix2 P n)
      = dec (nib (x0 (ix2 (⟨P.val / 8, by have := P.isLt; omega⟩ : Fin 512) n)) ⟨P.val % 8, by omega⟩)
        * x1 (ix2 (⟨P.val / 128, by have := P.isLt; omega⟩ : Fin 32) n) := by
  refine (pay1_at _ _ _ _ _ x1 P n).trans ?_
  refine congrArg₂ (· * ·) ?_ rfl
  rw [← code_at x0 (⟨P.val / 8, by have := P.isLt; omega⟩ : Fin 512) ⟨P.val % 8, by omega⟩ n]
  rfl

/-- The decoded, scaled cell is the weight, whatever names the row's coordinates go by. -/
theorem cell_eq (Q : (⟨2, ![512, 4096]⟩ : Shape).Idx → BitVec 32) (S : (⟨2, ![32, 4096]⟩ : Shape).Idx → EReal)
    (w : BitVec 32) (sc : EReal) (P K N : Fin 4096) (hK : K.val = P.val)
    (hw : w = Q (ix2 (⟨K.val / 8, by have := K.isLt; omega⟩ : Fin 512) N))
    (hs : sc = S (ix2 (⟨K.val / 128, by have := K.isLt; omega⟩ : Fin 32) N)) :
    dec (nib w ⟨P.val % 8, by omega⟩) * sc = wgtAt Q S K N := by
  obtain rfl : K = P := Fin.ext hK
  subst hw hs
  unfold wgtAt
  rw [dec_eq _ (nib_lt _ _)]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the 8 grid points: every block spans all rows of its array and the three move together along
    the columns; the column block index stays below 8. -/
theorem idx_facts : ∀ t : Fin cfg0.N, win0_0.index t (0 : Fin 2) = 0
    ∧ win0_0.index t (1 : Fin 2) = win0_2.index t (1 : Fin 2)
    ∧ win0_1.index t (0 : Fin 2) = 0
    ∧ win0_1.index t (1 : Fin 2) = win0_2.index t (1 : Fin 2)
    ∧ win0_2.index t (0 : Fin 2) = 0
    ∧ win0_2.index t (1 : Fin 2) ≤ 7 :=
  (by decide +kernel : ∀ t : Fin grid0.N, _)

/-- Every one of the 8 column blocks is some grid point's. -/
theorem idx_onto : ∀ q1 : Fin 8, ∃ t : Fin cfg0.N, win0_2.index t = ![0, q1.val] :=
  (by decide +kernel : ∀ q1 : Fin 8, ∃ t : Fin grid0.N, win0_2.index t = ![0, q1.val])

/-- The packed-word block at a point, read at (r, n): the array at row r, the block's column offset plus n. -/
theorem read0 (c : Dev nD) (t : Fin cfg0.N) (r : Fin 512) (n : Fin 512) (i : S512x4096.Idx)
    (h0 : (i 0).val = r.val) (h1 : (i 1).val = win0_2.index t (1 : Fin 2) * 512 + n.val) :
    iblk0 V c 0 t (ix2 r n) = V c main_arg1 i := by
  show V c main_arg1 (((cfg0.win 0).blk t).view.emb (ix2 r n)) = V c main_arg1 i
  obtain ⟨e0, e1, e2, e3, e4, e5⟩ := idx_facts t
  refine congrArg _ (funext fun a => Fin.ext ?_)
  match a with
  | ⟨0, _⟩ => show win0_0.index t (0 : Fin 2) * 512 + 1 * r.val = (i 0).val; omega
  | ⟨1, _⟩ => show win0_0.index t (1 : Fin 2) * 512 + 1 * n.val = (i 1).val; omega

/-- The scale block at a point, read at (g, n): the array at row g, the block's column offset plus n. -/
theorem read1 (c : Dev nD) (t : Fin cfg0.N) (g : Fin 32) (n : Fin 512) (i : S32x4096.Idx)
    (h0 : (i 0).val = g.val) (h1 : (i 1).val = win0_2.index t (1 : Fin 2) * 512 + n.val) :
    iblk0 V c 1 t (ix2 g n) = V c main_arg2 i := by
  show V c main_arg2 (((cfg0.win 1).blk t).view.emb (ix2 g n)) = V c main_arg2 i
  obtain ⟨e0, e1, e2, e3, e4, e5⟩ := idx_facts t
  refine congrArg _ (funext fun a => Fin.ext ?_)
  match a with
  | ⟨0, _⟩ => show win0_1.index t (0 : Fin 2) * 32 + 1 * g.val = (i 0).val; omega
  | ⟨1, _⟩ => show win0_1.index t (1 : Fin 2) * 512 + 1 * n.val = (i 1).val; omega

/-- What a point writes back is its block of the weight matrix of the arrays the pipeline finds. -/
theorem flushed_eq (c : Dev nD) (t : Fin cfg0.N) :
    (dat0 V c).flushed 2 t = ((cfg0.win 2).blk t).view.read (Elt Ideal) (wgt (V c main_arg1) (V c main_arg2)) := by
  show (cfg0.win 2).cut (grid0.coords t) ((dat0 V c).after 2 t) = _
  rw [after0_2]
  unfold out0_2
  rw [View.canon_unit_zero hz]
  simp only [View.ld_unit_zero (S := S512x512) hz, View.ld_unit_zero (S := S32x512) hz]
  funext y
  obtain ⟨P, n, rfl⟩ : ∃ (P : Fin 4096) (n : Fin 512), y = ix2 P n := ⟨y 0, y 1, eq_ix2 y⟩
  obtain ⟨e0, e1, e2, e3, e4, e5⟩ := idx_facts t
  refine (pay_at (iblk0 V c 0 t) (iblk0 V c 1 t) P n).trans ?_
  show _ = wgtAt (V c main_arg1) (V c main_arg2) _ _
  refine cell_eq _ _ _ _ P _ _ (by show win0_2.index t (0 : Fin 2) * 4096 + 1 * P.val = P.val; omega) ?_ ?_
  · exact read0 V c t _ n _ (by show (win0_2.index t (0 : Fin 2) * 4096 + 1 * P.val) / 8 = P.val / 8; omega)
      (by show win0_2.index t (1 : Fin 2) * 512 + 1 * n.val = _; omega)
  · exact read1 V c t _ n _ (by show (win0_2.index t (0 : Fin 2) * 4096 + 1 * P.val) / 128 = P.val / 128; omega)
      (by show win0_2.index t (1 : Fin 2) * 512 + 1 * n.val = _; omega)

/-- An index of the weight array is in a point's block iff each coordinate is in the block's range on its axis. -/
theorem mem_blk (t : Fin cfg0.N) (i : S4096x4096.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v0).slice (win0_2.rect t)).set ↔ _
  rw [View.set_slice_whole, Rect.mem_set_unit]
  exact Iff.rfl

/-- Every index of the weight array lies in the block of the point at column / 512. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- The weight array after the pipeline: the dequantized weights of the packed words and scales it finds at entry. -/
theorem final (c : Dev nD) :
    (dat0 V c).arrAt 2 cfg0.N = wgt (V c main_arg1) (V c main_arg2) :=
  (dat0 V c).arrAt_eq_of_cover 2 _ (fun t _ => flushed_eq V c t) cover

end Cert.KernelIdeal.DequantValue

end
-- ==== Proof.Matmul.lean ====
/-
  The second pipeline's value. At grid point (a, b) its body multiplies rows 1024a … 1024a+1023 of x (all 4096
  columns) with columns 512b … 512b+511 of the weight matrix it finds (all 4096 rows) and adds the bias of those
  columns: each entry is the full sum over the 4096 rows. The 64 blocks tile the 8192 × 4096 result.
-/
import proofs.«422847_j4724464026022_3_alg».proof.Proof.Gen.KernelIdeal.Frame
import proofs.«422847_j4724464026022_3_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.MatmulValue

open Cert.KernelIdeal Cert.KernelIdeal.Gen
open Idealize.ShloMosaic Idealize.ShloMosaic.ValueIdx Idealize.ShloMosaic.TcCoe Idealize.SL.Sem
open Idealize.ShloMosaic.Pipeline (Dat)

/-! ## The product's operand indices: the left one is (row, k), the right one (k, column) -/

theorem lhs_0 (j : S1024x512.Idx) (k : dot_S1024x4096_S4096x512_S1024x512_1_0_0_1_n_n.contr.Idx) :
    (dot_S1024x4096_S4096x512_S1024x512_1_0_0_1_n_n.lhsIdx j k 0).val = (j 0).val := rfl
theorem lhs_1 (j : S1024x512.Idx) (k : dot_S1024x4096_S4096x512_S1024x512_1_0_0_1_n_n.contr.Idx) :
    (dot_S1024x4096_S4096x512_S1024x512_1_0_0_1_n_n.lhsIdx j k 1).val = (k ⟨0, by decide⟩).val :=
  dot_S1024x4096_S4096x512_S1024x512_1_0_0_1_n_n.lhsIdx_val_of_single rfl j k
theorem rhs_0 (j : S1024x512.Idx) (k : dot_S1024x4096_S4096x512_S1024x512_1_0_0_1_n_n.contr.Idx) :
    (dot_S1024x4096_S4096x512_S1024x512_1_0_0_1_n_n.rhsIdx j k 0).val = (k ⟨0, by decide⟩).val :=
  dot_S1024x4096_S4096x512_S1024x512_1_0_0_1_n_n.rhsIdx_val_of_single rfl j k
theorem rhs_1 (j : S1024x512.Idx) (k : dot_S1024x4096_S4096x512_S1024x512_1_0_0_1_n_n.contr.Idx) :
    (dot_S1024x4096_S4096x512_S1024x512_1_0_0_1_n_n.rhsIdx j k 1).val = (j 1).val := rfl

/-- The body's stored value at (p, q): row p of the x block against column q of the weight block, summed over the
    4096 rows, plus the bias block at q. -/
theorem pay_at (x0 : Vec Ideal S1024x4096 .f32) (x1 : Vec Ideal S4096x512 .bf16) (x2 : Vec Ideal S512 .f32)
    (p : Fin 1024) (q : Fin 512) :
    k1_pay1 (F := Ideal) x0 x1 x2 (ix2 p q) = (∑ k : Fin 4096, x0 (ix2 p k) * x1 (ix2 k q)) + x2 (ix1 q) := by
  unfold k1_pay1
  rw [shapeCast_self]
  refine congrArg₂ (· + ·) ?_ ?_
  · refine (Ideal.matmul_constant_zero_apply (φ₁ := .bf16) (φ₂ := .bf16) dot_S1024x4096_S4096x512_S1024x512_1_0_0_1_n_n none
      (truncf .bf16 x0 bitsLt_bf16_f32) x1 (ix2 p q)).trans ?_
    rw [← Equiv.sum_comp (contrEquiv1 dot_S1024x4096_S4096x512_S1024x512_1_0_0_1_n_n 4096 rfl rfl).symm]
    refine Finset.sum_congr rfl fun k _ => ?_
    have hk := contrEquiv1_symm_val dot_S1024x4096_S4096x512_S1024x512_1_0_0_1_n_n 4096 rfl rfl k
    refine congrArg₂ (· * ·) (congrArg x0 (funext fun a => Fin.ext ?_)) (congrArg x1 (funext fun a => Fin.ext ?_))
    · match a with
      | ⟨0, _⟩ => exact lhs_0 _ _
      | ⟨1, _⟩ => exact (lhs_1 _ _).trans hk
    · match a with
      | ⟨0, _⟩ => exact (rhs_0 _ _).trans hk
      | ⟨1, _⟩ => exact rhs_1 _ _
  · exact (broadcastTo_1b_ab_apply _ _ p q).trans (shapeCast_a_1a_apply x2 _ 0 q)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the 64 grid points: the x block moves with the result block's rows and spans every column of
    x; the weight block spans every row and moves with the result block's columns, as does the bias block; the
    result's block indices stay below 8. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 1) = win1_3.index t (1 : Fin 2)
    ∧ win1_3.index t (0 : Fin 2) ≤ 7 ∧ win1_3.index t (1 : Fin 2) ≤ 7 :=
  (by decide +kernel : ∀ t : Fin grid1.N, _)

/-- Every one of the 8 × 8 result blocks is some grid point's. -/
theorem idx_onto : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

/-- The x block at a point, read at (p, k): the array at the result block's row offset plus p, column k. -/
theorem read0 (c : Dev nD) (t : Fin cfg1.N) (p : Fin 1024) (k : Fin 4096) (i : S8192x4096.Idx)
    (h0 : (i 0).val = win1_3.index t (0 : Fin 2) * 1024 + p.val) (h1 : (i 1).val = k.val) :
    iblk1 V c 0 t (ix2 p k) = V c main_arg0 i := by
  show V c main_arg0 (((cfg1.win 0).blk t).view.emb (ix2 p k)) = V c main_arg0 i
  obtain ⟨e0, e1, e2, e3, e4, e5, e6⟩ := idx_facts t
  refine congrArg _ (funext fun a => Fin.ext ?_)
  match a with
  | ⟨0, _⟩ => show win1_0.index t (0 : Fin 2) * 1024 + 1 * p.val = (i 0).val; omega
  | ⟨1, _⟩ => show win1_0.index t (1 : Fin 2) * 4096 + 1 * k.val = (i 1).val; omega

/-- The weight block at a point, read at (k, q): the array at row k, the result block's column offset plus q. -/
theorem read1 (c : Dev nD) (t : Fin cfg1.N) (k : Fin 4096) (q : Fin 512) (i : S4096x4096.Idx)
    (h0 : (i 0).val = k.val) (h1 : (i 1).val = win1_3.index t (1 : Fin 2) * 512 + q.val) :
    iblk1 V c 1 t (ix2 k q) = V c main_v0 i := by
  show V c main_v0 (((cfg1.win 1).blk t).view.emb (ix2 k q)) = V c main_v0 i
  obtain ⟨e0, e1, e2, e3, e4, e5, e6⟩ := idx_facts t
  refine congrArg _ (funext fun a => Fin.ext ?_)
  match a with
  | ⟨0, _⟩ => show win1_1.index t (0 : Fin 2) * 4096 + 1 * k.val = (i 0).val; omega
  | ⟨1, _⟩ => show win1_1.index t (1 : Fin 2) * 512 + 1 * q.val = (i 1).val; omega

/-- The bias block at a point, read at q: the array at the result block's column offset plus q. -/
theorem read2 (c : Dev nD) (t : Fin cfg1.N) (q : Fin 512) (i : S4096.Idx)
    (h0 : (i 0).val = win1_3.index t (1 : Fin 2) * 512 + q.val) :
    iblk1 V c 2 t (ix1 q) = V c main_arg3 i := by
  show V c main_arg3 (((cfg1.win 2).blk t).view.emb (ix1 q)) = V c main_arg3 i
  obtain ⟨e0, e1, e2, e3, e4, e5, e6⟩ := idx_facts t
  refine congrArg _ (funext fun a => Fin.ext ?_)
  match a with
  | ⟨0, _⟩ => show win1_2.index t (0 : Fin 1) * 512 + 1 * q.val = (i 0).val; omega

/-- What a point writes back is its block of `out` of the arrays the pipeline finds. -/
theorem flushed_eq (c : Dev nD) (t : Fin cfg1.N) :
    (dat1 V c).flushed 3 t = ((cfg1.win 3).blk t).view.read (Elt Ideal)
      (Cert.Dequant.out (V c main_arg0) (V c main_v0) (V c main_arg3)) := by
  show (cfg1.win 3).cut (grid1.coords t) ((dat1 V c).after 3 t) = _
  rw [after1_3]
  unfold out1_3
  rw [View.canon_unit_zero hz]
  simp only [View.ld_unit_zero (S := S1024x4096) hz, View.ld_unit_zero (S := S4096x512) hz, View.ld_unit_zero (S := S512) hz1]
  funext j
  obtain ⟨p, q, rfl⟩ : ∃ (p : Fin 1024) (q : Fin 512), j = ix2 p q := ⟨j 0, j 1, eq_ix2 j⟩
  refine (pay_at (iblk1 V c 0 t) (iblk1 V c 1 t) (iblk1 V c 2 t) p q).trans ?_
  show _ = Cert.Dequant.outAt (V c main_arg0) (V c main_v0) (V c main_arg3) _ _
  unfold Cert.Dequant.outAt
  refine congrArg₂ (· + ·) (Finset.sum_congr rfl fun k _ => congrArg₂ (· * ·) ?_ ?_) ?_
  · exact read0 V c t p k _ (by show win1_3.index t (0 : Fin 2) * 1024 + 1 * p.val = _; omega) rfl
  · exact read1 V c t k q _ rfl (by show win1_3.index t (1 : Fin 2) * 512 + 1 * q.val = _; omega)
  · exact read2 V c t q _ (by show win1_3.index t (1 : Fin 2) * 512 + 1 * q.val = _; omega)

/-- An index of the result array is in a point's block iff each coordinate is in the block's range on its axis. -/
theorem mem_blk (t : Fin cfg1.N) (i : S8192x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v1).slice (win1_3.rect t)).set ↔ _
  rw [View.set_slice_whole, Rect.mem_set_unit]
  exact Iff.rfl

/-- Every index of the result array lies in the block of the point at (row / 1024, column / 512). -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The result array after the pipeline: `x · W + bias` of the arrays it finds at entry. -/
theorem final (c : Dev nD) :
    (dat1 V c).arrAt 3 cfg1.N = Cert.Dequant.out (V c main_arg0) (V c main_v0) (V c main_arg3) :=
  (dat1 V c).arrAt_eq_of_cover 3 _ (fun t _ => flushed_eq V c t) cover

end Cert.KernelIdeal.MatmulValue

end
-- ==== Proof.KernelValue.lean ====
/-
  The kernel's two pipelines, chained. The second pipeline is entered from what the first one leaves: the packed words,
  the scales, x and the bias as launched (the first pipeline writes none of them), and the weight array at the first
  pipeline's result, the dequantized weights. So the result array ends at `x · W + bias` over those weights.
-/
import proofs.«422847_j4724464026022_3_alg».proof.Proof.KernelRun
import proofs.«422847_j4724464026022_3_alg».proof.Proof.Dequant
import proofs.«422847_j4724464026022_3_alg».proof.Proof.Matmul

noncomputable section

namespace Cert.KernelIdeal.WholeValue

open Cert.KernelIdeal Cert.KernelIdeal.Gen Cert.Dequant
open Idealize.ShloMosaic Idealize.ShloMosaic.TcCoe Idealize.SL.Sem

variable (m : (ℓ : Loc nD τ sig) → Buf (Elt Ideal) ℓ) (ρ : Dev nD → PrngReg)

/-- The second pipeline finds x as launched: the first pipeline does not write it. -/
theorem entry_arg0 (c : Dev nD) : V1 m ρ c main_arg0 = m ((c.tc : Thread nD τ).loc main_arg0) :=
  (W1_of_ne m ρ c main_arg0 (by decide)).trans rfl

/-- The second pipeline finds the bias as launched. -/
theorem entry_arg3 (c : Dev nD) : V1 m ρ c main_arg3 = m ((c.tc : Thread nD τ).loc main_arg3) :=
  (W1_of_ne m ρ c main_arg3 (by decide)).trans rfl

/-- The second pipeline finds, in the weight array, the dequantized weights of the launched packed words and scales. -/
theorem entry_v0 (c : Dev nD) :
    V1 m ρ c main_v0 = wgt (m ((c.tc : Thread nD τ).loc main_arg1)) (m ((c.tc : Thread nD τ).loc main_arg2)) :=
  (W1_arr m ρ c 2).trans (Cert.KernelIdeal.DequantValue.final (V0 m ρ) c)

/-- What the second pipeline leaves in the result array, as a function of the launched arguments. -/
theorem result (c : Dev nD) :
    (dat1 (V1 m ρ) c).arrAt 3 cfg1.N
      = out (m ((c.tc : Thread nD τ).loc main_arg0))
          (wgt (m ((c.tc : Thread nD τ).loc main_arg1)) (m ((c.tc : Thread nD τ).loc main_arg2)))
          (m ((c.tc : Thread nD τ).loc main_arg3)) := by
  rw [Cert.KernelIdeal.MatmulValue.final (V1 m ρ) c, entry_arg0, entry_v0, entry_arg3]

/-- Every weakly fair execution of the kernel program terminates with its result at `x · W + bias` over the
    dequantized weights, and its arguments unchanged. -/
theorem run : θ_run (defs (F := Ideal)) (onTc (τ := τ) (main (F := Ideal))) ⟨m, fun _ => 0, ρ⟩ fun r => ∀ c : Dev nD,
      r.2.mem ((c.tc : Thread nD τ).loc main_v1)
          = out (m ((c.tc : Thread nD τ).loc main_arg0))
              (wgt (m ((c.tc : Thread nD τ).loc main_arg1)) (m ((c.tc : Thread nD τ).loc main_arg2)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result m ρ c), (h c).2⟩)
    (Cert.KernelIdeal.GenRun.run_main (F := Ideal) m ρ)

end Cert.KernelIdeal.WholeValue

end
-- ==== Proof.RefValue.lean ====
/-
  The reference's run, read: its result array is `out x (wgt q s) b` of its arguments.
-/
import proofs.«422847_j4724464026022_3_alg».proof.Proof.Gen.ReferenceIdeal
import proofs.«422847_j4724464026022_3_alg».proof.Proof.Nibble
import Idealize.ShloMosaic.Lib.StableHlo.Run
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The stages of the program, as whole arrays of its arguments -/

/-- The shift amounts `0 + 4 · j`, one per nibble position `j`. -/
def shamt : IVec S8 32 :=
  addi (broadcastInDim S8 ![] bcast_S_S8 (constantI S_ 32 0#32))
    (muli (broadcastInDim S8 ![] bcast_S_S8 (constantI S_ 32 4#32)) (iotaInDim S8 32 0))

/-- The codes by packed row, nibble position and column: each packed word shifted right (arithmetically) by its
    nibble's amount and masked with 15. -/
def codes (q : IVec S512x4096 32) : IVec S512x8x4096 32 :=
  andi
    (Host.shrsi
      (broadcastInDim S512x8x4096 ![0, 1, 2] bcast_S512x1x4096_S512x8x4096_0_1_2
        (broadcastInDim S512x1x4096 ![0, 2] bcast_S512x4096_S512x1x4096_0_2 q))
      (broadcastInDim S512x8x4096 ![0, 1, 2] bcast_S1x8x1_S512x8x4096_0_1_2
        (broadcastInDim S1x8x1 ![1] bcast_S8_S1x8x1_1 shamt)))
    (broadcastInDim S512x8x4096 ![] bcast_S_S512x8x4096 (constantI S_ 32 15#32))

/-- The same codes by row group, row in the group and column (the row-major regrouping of the 4096 rows). -/
def codesG (q : IVec S512x4096 32) : IVec S32x128x4096 32 :=
  fun i => shapeCast S32x128x4096 (codes q) shapeCasts_S512x8x4096_S32x128x4096 i

/-- The codes after "add 16 if negative". -/
def wrapped (q : IVec S512x4096 32) : IVec S32x128x4096 32 :=
  select (cmpi CmpIPredicate.slt (codesG q) (broadcastInDim S32x128x4096 ![] bcast_S_S32x128x4096 (constantI S_ 32 0#32)))
    (addi (codesG q) (broadcastInDim S32x128x4096 ![] bcast_S_S32x128x4096 (constantI S_ 32 16#32)))
    (codesG q)

/-- The sixteen numbers of the table. -/
def table : FVec Ideal S16 .f32 := fun i => FloatOps.ofBits FTy.f32 (lit0 (S16.rowMajor i))

/-- The numbers the codes stand for: the table gathered at the codes. -/
def vals (q : IVec S512x4096 32) : FVec Ideal S32x128x4096 .f32 :=
  Host.gather gather_S16_S32x128x4096x1_S32x128x4096_n_0_n_n_0_3_1 table
    (broadcastInDim S32x128x4096x1 ![0, 1, 2] bcast_S32x128x4096_S32x128x4096x1_0_1_2 (wrapped q))

/-- The weights by row group, row in the group and column: the numbers times their group's scale. -/
def wG (q : IVec S512x4096 32) (s : FVec Ideal S32x4096 .f32) : FVec Ideal S32x128x4096 .f32 :=
  mulf (vals q)
    (broadcastInDim S32x128x4096 ![0, 1, 2] bcast_S32x1x4096_S32x128x4096_0_1_2
      (broadcastInDim S32x1x4096 ![0, 2] bcast_S32x4096_S32x1x4096_0_2 s))

/-- The weight matrix. -/
def wM (q : IVec S512x4096 32) (s : FVec Ideal S32x4096 .f32) : FVec Ideal S4096x4096 .f32 :=
  fun i => shapeCast S4096x4096 (wG q s) shapeCasts_S32x128x4096_S4096x4096 i

/-- The program's result: the product of `x` with the weight matrix, plus the bias laid along every row. -/
def refOut (x : FVec Ideal S8192x4096 .f32) (q : IVec S512x4096 32) (s : FVec Ideal S32x4096 .f32) (b : FVec Ideal S4096 .f32) :
    FVec Ideal S8192x4096 .f32 :=
  addf (Host.dotGeneral dot_S8192x4096_S4096x4096_S8192x4096_1_0_0_1_n_n none x (wM q s))
    (broadcastInDim S8192x4096 ![0, 1] bcast_S1x4096_S8192x4096_0_1
      (broadcastInDim S1x4096 ![1] bcast_S4096_S1x4096_1 b))

/-! ## The stages read at an index -/

/-- The shift amount at nibble position `j` is `4 j`. -/
theorem shamt_apply (j : Fin 8) : shamt (ix1 j) = BitVec.ofNat 32 (4 * j.val) := by
  refine Eq.trans ?_ (Cert.Dequant.shamt_eq j)
  show IntOp.addi (broadcastInDim S8 ![] bcast_S_S8 (constantI S_ 32 0#32) (ix1 j))
      (IntOp.muli (broadcastInDim S8 ![] bcast_S_S8 (constantI S_ 32 4#32) (ix1 j)) (iotaInDim S8 32 0 (ix1 j))) = _
  rw [broadcastInDim_scalar_apply, broadcastInDim_scalar_apply]
  rfl

/-- The packed words laid along the nibble axis read their own word. -/
theorem bq_apply (q : IVec S512x4096 32) (p : Fin 512) (j : Fin 8) (n : Fin 4096) :
    broadcastInDim S512x8x4096 ![0, 1, 2] bcast_S512x1x4096_S512x8x4096_0_1_2
      (broadcastInDim S512x1x4096 ![0, 2] bcast_S512x4096_S512x1x4096_0_2 q) (ix3 p j n) = q (ix2 p n) := by
  refine (broadcastInDim_apply _ _ _ (ix3 p j n) (ix3 p (0 : Fin 1) n) ?_).trans ?_
  · intro a; match a with | ⟨0, _⟩ => rfl | ⟨1, _⟩ => rfl | ⟨2, _⟩ => rfl
  · refine broadcastInDim_apply _ _ _ (ix3 p (0 : Fin 1) n) (ix2 p n) ?_
    intro a; match a with | ⟨0, _⟩ => rfl | ⟨1, _⟩ => rfl

/-- The shift amounts laid along the packed rows and the columns read their nibble's amount. -/
theorem bshamt_apply (p : Fin 512) (j : Fin 8) (n : Fin 4096) :
    broadcastInDim S512x8x4096 ![0, 1, 2] bcast_S1x8x1_S512x8x4096_0_1_2
      (broadcastInDim S1x8x1 ![1] bcast_S8_S1x8x1_1 shamt) (ix3 p j n) = shamt (ix1 j) := by
  refine (broadcastInDim_apply _ _ _ (ix3 p j n) (ix3 (0 : Fin 1) j (0 : Fin 1)) ?_).trans ?_
  · intro a; match a with | ⟨0, _⟩ => rfl | ⟨1, _⟩ => rfl | ⟨2, _⟩ => rfl
  · refine broadcastInDim_apply _ _ _ (ix3 (0 : Fin 1) j (0 : Fin 1)) (ix1 j) ?_
    intro a; match a with | ⟨0, _⟩ => rfl

/-- The code at packed row `p`, nibble position `j`, column `n` is nibble `j` of the packed word. -/
theorem codes_apply (q : IVec S512x4096 32) (p : Fin 512) (j : Fin 8) (n : Fin 4096) :
    codes q (ix3 p j n) = Cert.Dequant.nib (q (ix2 p n)) j := by
  refine Eq.trans ?_ (Cert.Dequant.shrsi_andi .host (q (ix2 p n)) j)
  show IntOp.andi (IntOp.shrsi .host _ _) (broadcastInDim S512x8x4096 ![] bcast_S_S512x8x4096 (constantI S_ 32 15#32) (ix3 p j n)) = _
  rw [bq_apply, bshamt_apply, shamt_apply, broadcastInDim_scalar_apply]
  rfl

/-- Row `r` of row group `g` is nibble `j` of packed row `p` whenever `128 g + r = 8 p + j`. -/
theorem codesG_apply (q : IVec S512x4096 32) (g : Fin 32) (r : Fin 128) (n : Fin 4096) (p : Fin 512) (j : Fin 8)
    (h : 128 * g.val + r.val = 8 * p.val + j.val) :
    codesG q (ix3 g r n) = Cert.Dequant.nib (q (ix2 p n)) j := by
  refine Eq.trans ?_ (codes_apply q p j n)
  refine shapeCast_apply (codes q) shapeCasts_S512x8x4096_S32x128x4096 (ix3 g r n) (ix3 p j n) ?_
  rw [Shape.rowMajor_val_three, Shape.rowMajor_val_three]
  show (p.val * 8 + j.val) * 4096 + n.val = (g.val * 128 + r.val) * 4096 + n.val
  omega

/-- "Add 16 if negative" leaves a nibble. -/
theorem wrapped_apply (q : IVec S512x4096 32) (g : Fin 32) (r : Fin 128) (n : Fin 4096) (p : Fin 512) (j : Fin 8)
    (h : 128 * g.val + r.val = 8 * p.val + j.val) :
    wrapped q (ix3 g r n) = Cert.Dequant.nib (q (ix2 p n)) j := by
  show Scalar.select (IntOp.cmpi .slt (codesG q (ix3 g r n)) (broadcastInDim S32x128x4096 ![] bcast_S_S32x128x4096 (constantI S_ 32 0#32) (ix3 g r n)))
      (IntOp.addi (codesG q (ix3 g r n)) (broadcastInDim S32x128x4096 ![] bcast_S_S32x128x4096 (constantI S_ 32 16#32) (ix3 g r n)))
      (codesG q (ix3 g r n)) = _
  rw [broadcastInDim_scalar_apply, broadcastInDim_scalar_apply, codesG_apply q g r n p j h]
  exact Cert.Dequant.wrap_eq _ (Cert.Dequant.nib_lt _ _)

/-- The table's entry at position `a` is the number of code `a`. -/
theorem table_apply (a : Fin 16) : table (ix1 a) = ((Cert.Dequant.codeVal a : ℝ) : EReal) := by
  refine Eq.trans ?_ (Cert.Dequant.tabWord_val a)
  show Ideal.ofBits .f32 (lit0 (S16.rowMajor (ix1 a))) = Ideal.ofBits .f32 (Cert.Dequant.tabWord a)
  have ha : S16.rowMajor (ix1 a) = a := Fin.ext (Shape.rowMajor_val_one (ix1 a))
  rw [ha]
  rfl

/-- The gather of the 16-entry table at a rank-4 array of start indices `[32, 128, 4096, 1]`, read at an index: the
    table at the start index, read signed and clamped into `[0, 15]`. -/
theorem gather_apply {α : Type} (T : S16.Idx → α) (idx : IVec S32x128x4096x1 32) (g : Fin 32) (r : Fin 128) (n : Fin 4096) :
    Host.gather gather_S16_S32x128x4096x1_S32x128x4096_n_0_n_n_0_3_1 T idx (ix3 g r n)
      = T (ix1 ⟨min (idx (ix4 g r n (0 : Fin 1))).toInt.toNat (16 - 1), by omega⟩) := by
  unfold Host.gather
  congr 1
  funext a
  obtain rfl : a = 0 := Subsingleton.elim _ _
  refine Fin.ext ?_
  show gather_S16_S32x128x4096x1_S32x128x4096_n_0_n_n_0_3_1.start (ix3 g r n) idx 0
      + gather_S16_S32x128x4096x1_S32x128x4096_n_0_n_n_0_3_1.batchCoord (ix3 g r n) 0
      + gather_S16_S32x128x4096x1_S32x128x4096_n_0_n_n_0_3_1.offCoord (ix3 g r n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S32x128x4096x1_S32x128x4096_n_0_n_n_0_3_1.startIndexMap from List.mem_singleton.mpr rfl)]
  have hsi : gather_S16_S32x128x4096x1_S32x128x4096_n_0_n_n_0_3_1.siIdx (ix3 g r n)
      ⟨List.idxOf (0 : Fin 1) gather_S16_S32x128x4096x1_S32x128x4096_n_0_n_n_0_3_1.startIndexMap,
        List.idxOf_lt_length_iff.2 (List.mem_singleton.mpr rfl)⟩ = ix4 g r n (0 : Fin 1) := by
    funext b; refine Fin.ext ?_
    match b with
    | ⟨0, _⟩ => rfl
    | ⟨1, _⟩ => rfl
    | ⟨2, _⟩ => rfl
    | ⟨3, _⟩ => rfl
  rw [hsi]
  rfl

/-- The start indices with their unit axis read the wrapped code. -/
theorem bwrapped_apply (q : IVec S512x4096 32) (g : Fin 32) (r : Fin 128) (n : Fin 4096) :
    broadcastInDim S32x128x4096x1 ![0, 1, 2] bcast_S32x128x4096_S32x128x4096x1_0_1_2 (wrapped q) (ix4 g r n (0 : Fin 1))
      = wrapped q (ix3 g r n) := by
  refine broadcastInDim_apply _ _ _ (ix4 g r n (0 : Fin 1)) (ix3 g r n) ?_
  intro a; match a with | ⟨0, _⟩ => rfl | ⟨1, _⟩ => rfl | ⟨2, _⟩ => rfl

/-- The number at row `r` of row group `g` is the number of its nibble. -/
theorem vals_apply (q : IVec S512x4096 32) (g : Fin 32) (r : Fin 128) (n : Fin 4096) (p : Fin 512) (j : Fin 8)
    (h : 128 * g.val + r.val = 8 * p.val + j.val) :
    vals q (ix3 g r n) = Cert.Dequant.valOf (Cert.Dequant.nib (q (ix2 p n)) j) := by
  have hlt := Cert.Dequant.nib_lt (q (ix2 p n)) j
  unfold vals
  rw [gather_apply, Cert.Dequant.valOf]
  refine (table_apply _).trans ?_
  congr 3
  rw [bwrapped_apply, wrapped_apply q g r n p j h, Cert.Dequant.clamp_eq _ hlt, Nat.mod_eq_of_lt hlt]

/-- The scales laid along the rows of a group read the group's scale. -/
theorem bs_apply (s : FVec Ideal S32x4096 .f32) (g : Fin 32) (r : Fin 128) (n : Fin 4096) :
    broadcastInDim S32x128x4096 ![0, 1, 2] bcast_S32x1x4096_S32x128x4096_0_1_2
      (broadcastInDim S32x1x4096 ![0, 2] bcast_S32x4096_S32x1x4096_0_2 s) (ix3 g r n) = s (ix2 g n) := by
  refine (broadcastInDim_apply _ _ _ (ix3 g r n) (ix3 g (0 : Fin 1) n) ?_).trans ?_
  · intro a; match a with | ⟨0, _⟩ => rfl | ⟨1, _⟩ => rfl | ⟨2, _⟩ => rfl
  · refine broadcastInDim_apply _ _ _ (ix3 g (0 : Fin 1) n) (ix2 g n) ?_
    intro a; match a with | ⟨0, _⟩ => rfl | ⟨1, _⟩ => rfl

/-- The weight matrix at row `k`, column `n` is the specification's weight. -/
theorem wM_apply (q : IVec S512x4096 32) (s : FVec Ideal S32x4096 .f32) (k n : Fin 4096) :
    wM q s (ix2 k n) = Cert.Dequant.wgtAt q s k n := by
  have hk := k.isLt
  let g : Fin 32 := ⟨k.val / 128, by omega⟩
  let r : Fin 128 := ⟨k.val % 128, Nat.mod_lt _ (by decide)⟩
  have h1 : wM q s (ix2 k n) = wG q s (ix3 g r n) := by
    refine shapeCast_apply (wG q s) shapeCasts_S32x128x4096_S4096x4096 (ix2 k n) (ix3 g r n) ?_
    rw [Shape.rowMajor_val_three, Shape.rowMajor_val_two]
    show (k.val / 128 * 128 + k.val % 128) * 4096 + n.val = k.val * 4096 + n.val
    omega
  rw [h1]
  show vals q (ix3 g r n) * _ = _
  rw [bs_apply, vals_apply q g r n ⟨k.val / 8, by omega⟩ ⟨k.val % 8, Nat.mod_lt _ (by decide)⟩
    (by show 128 * (k.val / 128) + k.val % 128 = 8 * (k.val / 8) + k.val % 8; omega)]
  rfl

/-- The bias laid along every row reads the column's bias. -/
theorem bb_apply (b : FVec Ideal S4096 .f32) (r : Fin 8192) (n : Fin 4096) :
    broadcastInDim S8192x4096 ![0, 1] bcast_S1x4096_S8192x4096_0_1
      (broadcastInDim S1x4096 ![1] bcast_S4096_S1x4096_1 b) (ix2 r n) = b (ix1 n) := by
  refine (broadcastInDim_apply _ _ _ (ix2 r n) (ix2 (0 : Fin 1) n) ?_).trans ?_
  · intro a; match a with | ⟨0, _⟩ => rfl | ⟨1, _⟩ => rfl
  · refine broadcastInDim_apply _ _ _ (ix2 (0 : Fin 1) n) (ix1 n) ?_
    intro a; match a with | ⟨0, _⟩ => rfl

/-- The matrix product at row `r`, column `n` is the sum over the 4096 contracted positions. -/
theorem dot_apply (x : FVec Ideal S8192x4096 .f32) (W : FVec Ideal S4096x4096 .f32) (r : Fin 8192) (n : Fin 4096) :
    Host.dotGeneral dot_S8192x4096_S4096x4096_S8192x4096_1_0_0_1_n_n none x W (ix2 r n) = ∑ k : Fin 4096, x (ix2 r k) * W (ix2 k n) := by
  show FloatOps.dotGeneral dot_S8192x4096_S4096x4096_S8192x4096_1_0_0_1_n_n none HostSchedule.single x W (ix2 r n) = _
  rw [Ideal.dotGeneral_apply]
  refine Fintype.sum_equiv (contrEquiv1 dot_S8192x4096_S4096x4096_S8192x4096_1_0_0_1_n_n 4096 rfl rfl) _ _ fun k => ?_
  have hl : dot_S8192x4096_S4096x4096_S8192x4096_1_0_0_1_n_n.lhsIdx (ix2 r n) k = ix2 r (contrEquiv1 dot_S8192x4096_S4096x4096_S8192x4096_1_0_0_1_n_n 4096 rfl rfl k) := by
    funext a; refine Fin.ext ?_
    match a with
    | ⟨0, _⟩ => rfl
    | ⟨1, _⟩ => exact DotDims.lhsIdx_val_of_single dot_S8192x4096_S4096x4096_S8192x4096_1_0_0_1_n_n rfl (ix2 r n) k
  have hr : dot_S8192x4096_S4096x4096_S8192x4096_1_0_0_1_n_n.rhsIdx (ix2 r n) k = ix2 (contrEquiv1 dot_S8192x4096_S4096x4096_S8192x4096_1_0_0_1_n_n 4096 rfl rfl k) n := by
    funext a; refine Fin.ext ?_
    match a with
    | ⟨0, _⟩ => exact DotDims.rhsIdx_val_of_single dot_S8192x4096_S4096x4096_S8192x4096_1_0_0_1_n_n rfl (ix2 r n) k
    | ⟨1, _⟩ => rfl
  rw [hl, hr]

/-- The program's result at row `r`, column `n` is the specification's. -/
theorem refOut_apply (x : FVec Ideal S8192x4096 .f32) (q : IVec S512x4096 32) (s : FVec Ideal S32x4096 .f32)
    (b : FVec Ideal S4096 .f32) (r : Fin 8192) (n : Fin 4096) :
    refOut x q s b (ix2 r n) = Cert.Dequant.outAt x (Cert.Dequant.wgt q s) b r n := by
  show Host.dotGeneral dot_S8192x4096_S4096x4096_S8192x4096_1_0_0_1_n_n none x (wM q s) (ix2 r n)
      + broadcastInDim S8192x4096 ![0, 1] bcast_S1x4096_S8192x4096_0_1
          (broadcastInDim S1x4096 ![1] bcast_S4096_S1x4096_1 b) (ix2 r n) = _
  rw [dot_apply, bb_apply]
  unfold Cert.Dequant.outAt
  refine congrArg (· + b (ix1 n)) (Finset.sum_congr rfl fun k _ => ?_)
  rw [wM_apply]
  rfl

/-- The program's result is the specification's, as whole arrays. -/
theorem refOut_eq (x : FVec Ideal S8192x4096 .f32) (q : IVec S512x4096 32) (s : FVec Ideal S32x4096 .f32)
    (b : FVec Ideal S4096 .f32) :
    refOut x q s b = Cert.Dequant.out x (Cert.Dequant.wgt q s) b := by
  funext i
  obtain ⟨r, n, rfl⟩ : ∃ (r : Fin 8192) (n : Fin 4096), i = ix2 r n := ⟨i 0, i 1, eq_ix2 i⟩
  exact refOut_apply x q s b r n

/-! ## The run -/

variable {F : FTy → Type} [FloatOps F]

/-- The program's operations, in order. -/
abbrev ops : List (HloOp τ sig (Elt F)) :=
  [ nullary main_cst (fun i => FloatOps.ofBits .f32 (lit0 (S16.rowMajor i))),
    nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v1 main_v0 main_v2 (muli : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v3 (broadcastInDim S8 ![] bcast_S_S8 : (⟨S_, .i32⟩ : BufTy).Contents (Elt F) → (⟨S8, .i32⟩ : BufTy).Contents (Elt F)),
    binary main_v3 main_v2 main_v4 (addi : (⟨S8, .i32⟩ : BufTy).Contents (Elt F) → (⟨S8, .i32⟩ : BufTy).Contents (Elt F) → (⟨S8, .i32⟩ : BufTy).Contents (Elt F)),
    unary main_arg1 main_v5 (broadcastInDim S512x1x4096 ![0, 2] bcast_S512x4096_S512x1x4096_0_2 : (⟨S512x4096, .i32⟩ : BufTy).Contents (Elt F) → (⟨S512x1x4096, .i32⟩ : BufTy).Contents (Elt F)),
    unary main_v4 main_v6 (broadcastInDim S1x8x1 ![1] bcast_S8_S1x8x1_1 : (⟨S8, .i32⟩ : BufTy).Contents (Elt F) → (⟨S1x8x1, .i32⟩ : BufTy).Contents (Elt F)),
    unary main_v5 main_v7 (broadcastInDim S512x8x4096 ![0, 1, 2] bcast_S512x1x4096_S512x8x4096_0_1_2 : (⟨S512x1x4096, .i32⟩ : BufTy).Contents (Elt F) → (⟨S512x8x4096, .i32⟩ : BufTy).Contents (Elt F)),
    unary main_v6 main_v8 (broadcastInDim S512x8x4096 ![0, 1, 2] bcast_S1x8x1_S512x8x4096_0_1_2 : (⟨S1x8x1, .i32⟩ : BufTy).Contents (Elt F) → (⟨S512x8x4096, .i32⟩ : BufTy).Contents (Elt F)),
    binary main_v7 main_v8 main_v9 (Host.shrsi : (⟨S512x8x4096, .i32⟩ : BufTy).Contents (Elt F) → (⟨S512x8x4096, .i32⟩ : BufTy).Contents (Elt F) → (⟨S512x8x4096, .i32⟩ : BufTy).Contents (Elt F)),
    nullary main_c_1 (constantI S_ 32 15#32),
    unary main_c_1 main_v10 (broadcastInDim S512x8x4096 ![] bcast_S_S512x8x4096 : (⟨S_, .i32⟩ : BufTy).Contents (Elt F) → (⟨S512x8x4096, .i32⟩ : BufTy).Contents (Elt F)),
    binary main_v9 main_v10 main_v11 (andi : (⟨S512x8x4096, .i32⟩ : BufTy).Contents (Elt F) → (⟨S512x8x4096, .i32⟩ : BufTy).Contents (Elt F) → (⟨S512x8x4096, .i32⟩ : BufTy).Contents (Elt F)),
    reshape main_v11 main_v12 rfl shapeCasts_S512x8x4096_S32x128x4096,
    nullary main_c_2 (constantI S_ 32 0#32),
    unary main_c_2 main_v13 (broadcastInDim S32x128x4096 ![] bcast_S_S32x128x4096 : (⟨S_, .i32⟩ : BufTy).Contents (Elt F) → (⟨S32x128x4096, .i32⟩ : BufTy).Contents (Elt F)),
    binary main_v12 main_v13 main_v14 (cmpi .slt : (⟨S32x128x4096, .i32⟩ : BufTy).Contents (Elt F) → (⟨S32x128x4096, .i32⟩ : BufTy).Contents (Elt F) → (⟨S32x128x4096, .i1⟩ : BufTy).Contents (Elt F)),
    nullary main_c_3 (constantI S_ 32 16#32),
    unary main_c_3 main_v15 (broadcastInDim S32x128x4096 ![] bcast_S_S32x128x4096 : (⟨S_, .i32⟩ : BufTy).Contents (Elt F) → (⟨S32x128x4096, .i32⟩ : BufTy).Contents (Elt F)),
    binary main_v12 main_v15 main_v16 (addi : (⟨S32x128x4096, .i32⟩ : BufTy).Contents (Elt F) → (⟨S32x128x4096, .i32⟩ : BufTy).Contents (Elt F) → (⟨S32x128x4096, .i32⟩ : BufTy).Contents (Elt F)),
    ternary main_v14 main_v16 main_v12 main_v17 (select : (⟨S32x128x4096, .i1⟩ : BufTy).Contents (Elt F) → (⟨S32x128x4096, .i32⟩ : BufTy).Contents (Elt F) → (⟨S32x128x4096, .i32⟩ : BufTy).Contents (Elt F) → (⟨S32x128x4096, .i32⟩ : BufTy).Contents (Elt F)),
    unary main_v17 main_v18 (broadcastInDim S32x128x4096x1 ![0, 1, 2] bcast_S32x128x4096_S32x128x4096x1_0_1_2 : (⟨S32x128x4096, .i32⟩ : BufTy).Contents (Elt F) → (⟨S32x128x4096x1, .i32⟩ : BufTy).Contents (Elt F)),
    binary main_cst main_v18 main_v19 ((fun x i => Host.gather gather_S16_S32x128x4096x1_S32x128x4096_n_0_n_n_0_3_1 x i) : (⟨S16, .f32⟩ : BufTy).Contents (Elt F) → (⟨S32x128x4096x1, .i32⟩ : BufTy).Contents (Elt F) → (⟨S32x128x4096, .f32⟩ : BufTy).Contents (Elt F)),
    unary main_arg2 main_v20 (broadcastInDim S32x1x4096 ![0, 2] bcast_S32x4096_S32x1x4096_0_2 : (⟨S32x4096, .f32⟩ : BufTy).Contents (Elt F) → (⟨S32x1x4096, .f32⟩ : BufTy).Contents (Elt F)),
    unary main_v20 main_v21 (broadcastInDim S32x128x4096 ![0, 1, 2] bcast_S32x1x4096_S32x128x4096_0_1_2 : (⟨S32x1x4096, .f32⟩ : BufTy).Contents (Elt F) → (⟨S32x128x4096, .f32⟩ : BufTy).Contents (Elt F)),
    binary main_v19 main_v21 main_v22 (mulf : (⟨S32x128x4096, .f32⟩ : BufTy).Contents (Elt F) → (⟨S32x128x4096, .f32⟩ : BufTy).Contents (Elt F) → (⟨S32x128x4096, .f32⟩ : BufTy).Contents (Elt F)),
    reshape main_v22 main_v23 rfl shapeCasts_S32x128x4096_S4096x4096,
    binary main_arg0 main_v23 main_v24 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg3 main_v25 (broadcastInDim S1x4096 ![1] bcast_S4096_S1x4096_1 : (⟨S4096, .f32⟩ : BufTy).Contents (Elt F) → (⟨S1x4096, .f32⟩ : BufTy).Contents (Elt F)),
    unary main_v25 main_v26 (broadcastInDim S8192x4096 ![0, 1] bcast_S1x4096_S8192x4096_0_1 : (⟨S1x4096, .f32⟩ : BufTy).Contents (Elt F) → (⟨S8192x4096, .f32⟩ : BufTy).Contents (Elt F)),
    binary main_v24 main_v26 main_v27 (addf : (⟨S8192x4096, .f32⟩ : BufTy).Contents (Elt F) → (⟨S8192x4096, .f32⟩ : BufTy).Contents (Elt F) → (⟨S8192x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., binary_bufs_sub .., unary_bufs_sub .., unary_bufs_sub .., binary_bufs_sub ..⟩

/-- Every weakly fair execution of the reference from a memory with zero counters terminates with its result at
    `x · W + bias` over the dequantized weights `W`, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = Cert.Dequant.out (m ((c.tc : Thread nD τ).loc main_arg0))
              (Cert.Dequant.wgt (m ((c.tc : Thread nD τ).loc main_arg1)) (m ((c.tc : Thread nD τ).loc main_arg2)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (by
        after_results_simp
        exact refOut_eq (m ((c.tc : Thread nD τ).loc main_arg0)) (m ((c.tc : Thread nD τ).loc main_arg1))
          (m ((c.tc : Thread nD τ).loc main_arg2)) (m ((c.tc : Thread nD τ).loc main_arg3))),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.lean ====
/-
  A linear layer over 4-bit weights: the kernel and its reference compute the same array over the extended reals.

  The weights arrive packed, eight 4-bit codes to a 32-bit word, with one scale per group of 128 rows and column.
  The reference unpacks nibble `j` of a word by an arithmetic shift right by `4 j` and the mask 15, looks the code up
  in a table of sixteen numbers (−6, −4, −3, −2, −3/2, −1, −1/2, 0, 0, 1/2, 1, 3/2, 2, 3, 4, 6), scales it, and takes
  `x · W + bias`. The kernel does it in two pipelines. The first unpacks by a LOGICAL shift (the same low four bits,
  since `4 j ≤ 28` keeps them clear of the sign bits an arithmetic shift brings in), and decodes by sign and
  magnitude instead of a table: bit 3 is the sign, the low three bits, complemented when the sign is negative, split
  into an exponent field and a mantissa bit, and the magnitude is `b / 2` at exponent 0 and
  `(1 + b / 2) · 2 ^ (e − 1)` otherwise; on each of the sixteen codes this is the table's number (at code 7 it is
  `0 · (−1) = 0`). It stores the scaled weights in a narrower float format, which over the extended reals changes
  nothing. The second pipeline multiplies a block of 1024 rows of `x` with a block of 512 weight columns over all 4096
  rows at once and adds the bias: the same sum over the 4096 rows, entry by entry. No step uses that the inputs are
  finite: both sides form the same products and the same sums in the same order.

  Proof/Spec.lean states that common function (`wgt`, `out`); Proof/Nibble.lean the facts about one code;
  Proof/Dequant.lean and Proof/Matmul.lean what each pipeline leaves in its output array, block by block and then
  whole; Proof/KernelRun.lean and Proof/KernelValue.lean the kernel's run with its result named; Proof/RefValue.lean
  the reference's run read at an index.
-/
import proofs.«422847_j4724464026022_3_alg».proof.Defs
import proofs.«422847_j4724464026022_3_alg».proof.Proof.Gen.Kernel
import proofs.«422847_j4724464026022_3_alg».proof.Proof.Gen.Kernel.Skeleton
import proofs.«422847_j4724464026022_3_alg».proof.Proof.Gen.Kernel.Launch
import proofs.«422847_j4724464026022_3_alg».proof.Proof.Gen.Kernel.Points
import proofs.«422847_j4724464026022_3_alg».proof.Proof.Gen.Kernel.Frame
import proofs.«422847_j4724464026022_3_alg».proof.Proof.Gen.KernelIdeal
import proofs.«422847_j4724464026022_3_alg».proof.Proof.Gen.KernelIdeal.Skeleton
import proofs.«422847_j4724464026022_3_alg».proof.Proof.Gen.KernelIdeal.Launch
import proofs.«422847_j4724464026022_3_alg».proof.Proof.Gen.KernelIdeal.Points
import proofs.«422847_j4724464026022_3_alg».proof.Proof.Gen.KernelIdeal.Frame
import proofs.«422847_j4724464026022_3_alg».proof.Proof.Gen.ReferenceIdeal
import proofs.«422847_j4724464026022_3_alg».proof.Proof.Gen.Pre_finite_inputs
import proofs.«422847_j4724464026022_3_alg».proof.Proof.KernelValue
import proofs.«422847_j4724464026022_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the four arguments both programs end with the result at `x · W + bias` over the
    dequantized weights `W` of those arguments. -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
